-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64x64 : Shape := ⟨3, ![8192, 64, 64]⟩
abbrev S_ : Shape := ⟨0, ![]⟩

class Facts : Prop where
  bcast_S_S8192x64x64 : S_.BroadcastsInDim S8192x64x64 (![] : Fin 0 → Fin S8192x64x64.rank)
  reducesTo_S8192x64x64_S_d0_1_2 : S8192x64x64.ReducesTo [0, 1, 2] S_
  h_S_ : 0 < S_.numel

variable [Facts]

def fn {F : FTy → Type} [FloatOps F] (main_arg0 : FVec F S8192x64x64 .f32) : IVec S_ 1 :=
  let main_v0 : FVec F S8192x64x64 .f32 := Host.absf main_arg0
  let main_cst : FVec F S_ .f32 := constant S_ .f32 0x7F800000#32
  let main_v1 : FVec F S8192x64x64 .f32 := broadcastInDim S8192x64x64 ![] bcast_S_S8192x64x64 main_cst
  let main_v2 : IVec S8192x64x64 1 := cmpf .olt main_v0 main_v1
  let main_c : IVec S_ 1 := constantI S_ 1 1#1
  let main_v3 : IVec S_ 1 := (fun x v => Host.reduce IntOp.andi x v reducesTo_S8192x64x64_S_d0_1_2 h_S_) main_v2 main_c
  main_v3
-- ==== Kernel.lean ====
abbrev S8192x64x64 : Shape := ⟨3, ![8192, 64, 64]⟩
abbrev S128x64x64 : Shape := ⟨3, ![128, 64, 64]⟩

abbrev nBuf : Space → Nat
  | .hbm => 2
  | .vmem => 4
  | .smem => 0
  | _ => 0

abbrev bufTy : (tb : Table) → Fin (tcTables nBuf tb) → BufTy
  | .hbm, ⟨0, _⟩ => ⟨S8192x64x64, .f32⟩
  | .hbm, ⟨1, _⟩ => ⟨S8192x64x64, .f32⟩
  | .local _ .vmem, ⟨0, _⟩ => ⟨S128x64x64, .f32⟩
  | .local _ .vmem, ⟨1, _⟩ => ⟨S128x64x64, .f32⟩
  | .local _ .vmem, ⟨2, _⟩ => ⟨S128x64x64, .f32⟩
  | .local _ .vmem, ⟨3, _⟩ => ⟨S128x64x64, .f32⟩
  | _, _ => ⟨S8192x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S128x64x64_S128x64x64_0_0_0 : ∀ a, (![0, 0, 0] : Fin 3 → Nat) a + S128x64x64.size a ≤ S128x64x64.size a
  h_S128x64x64 : 0 < S128x64x64.numel
  bitsLt_bf16_f32 : FTy.bits .bf16 < FTy.bits .f32
  transposes_S128x64x64_p0_2_1_S128x64x64 : S128x64x64.Transposes [0, 2, 1] S128x64x64
  dot_S128x64x64_S128x64x64_S128x64x64_2_1_1_2_0_0_wf : DotDims.WF S128x64x64 S128x64x64 S128x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x64.size a ≤ S8192x64x64.size a
  hwx0_0 : ∀ i : grid0.Coords, EltTy.bits .f32 = 32 ∨ (Rect.block (s := S8192x64x64) S128x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x64.size a ≤ S8192x64x64.size a
  hwx0_1 : ∀ i : grid0.Coords, EltTy.bits .f32 = 32 ∨ (Rect.block (s := S8192x64x64) S128x64x64.size (cc0_transform_1 i) (hinb0_1 i)).WholeWords (EltTy.packing .f32)

variable [Facts₀]

def dot_S128x64x64_S128x64x64_S128x64x64_2_1_1_2_0_0 : DotDims S128x64x64 S128x64x64 S128x64x64 where
  lhsContracting := [2]
  rhsContracting := [1]
  lhsNonContracting := [1]
  rhsNonContracting := [2]
  lhsBatch := [0]
  rhsBatch := [0]
  wf := dot_S128x64x64_S128x64x64_S128x64x64_2_1_1_2_0_0_wf

abbrev win0_0 : Pipeline.Window sig grid0 :=
  Pipeline.Window.ofSpec (Memref.whole main_arg0) S128x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x64x64 : Shape := ⟨3, ![8192, 64, 64]⟩
abbrev S_ : Shape := ⟨0, ![]⟩

abbrev nBuf : Space → Nat
  | .hbm => 131
  | .vmem => 0
  | .smem => 0
  | _ => 0

abbrev hbmTy0_0 (i : Nat) : BufTy := match i % 128 with
  | 0 => ⟨S8192x64x64, .f32⟩
  | 1 => ⟨S8192x64x64, .f32⟩
  | 2 => ⟨S8192x64x64, .f32⟩
  | 3 => ⟨S_, .f32⟩
  | 4 => ⟨S8192x64x64, .f32⟩
  | 5 => ⟨S8192x64x64, .f32⟩
  | 6 => ⟨S8192x64x64, .f32⟩
  | 7 => ⟨S_, .f32⟩
  | 8 => ⟨S8192x64x64, .f32⟩
  | 9 => ⟨S8192x64x64, .f32⟩
  | 10 => ⟨S8192x64x64, .f32⟩
  | 11 => ⟨S8192x64x64, .f32⟩
  | 12 => ⟨S8192x64x64, .f32⟩
  | 13 => ⟨S_, .f32⟩
  | 14 => ⟨S8192x64x64, .f32⟩
  | 15 => ⟨S8192x64x64, .f32⟩
  | 16 => ⟨S8192x64x64, .f32⟩
  | 17 => ⟨S_, .f32⟩
  | 18 => ⟨S8192x64x64, .f32⟩
  | 19 => ⟨S8192x64x64, .f32⟩
  | 20 => ⟨S8192x64x64, .f32⟩
  | 21 => ⟨S8192x64x64, .f32⟩
  | 22 => ⟨S8192x64x64, .f32⟩
  | 23 => ⟨S_, .f32⟩
  | 24 => ⟨S8192x64x64, .f32⟩
  | 25 => ⟨S8192x64x64, .f32⟩
  | 26 => ⟨S8192x64x64, .f32⟩
  | 27 => ⟨S_, .f32⟩
  | 28 => ⟨S8192x64x64, .f32⟩
  | 29 => ⟨S8192x64x64, .f32⟩
  | 30 => ⟨S8192x64x64, .f32⟩
  | 31 => ⟨S8192x64x64, .f32⟩
  | 32 => ⟨S8192x64x64, .f32⟩
  | 33 => ⟨S_, .f32⟩
  | 34 => ⟨S8192x64x64, .f32⟩
  | 35 => ⟨S8192x64x64, .f32⟩
  | 36 => ⟨S8192x64x64, .f32⟩
  | 37 => ⟨S_, .f32⟩
  | 38 => ⟨S8192x64x64, .f32⟩
  | 39 => ⟨S8192x64x64, .f32⟩
  | 40 => ⟨S8192x64x64, .f32⟩
  | 41 => ⟨S8192x64x64, .f32⟩
  | 42 => ⟨S8192x64x64, .f32⟩
  | 43 => ⟨S_, .f32⟩
  | 44 => ⟨S8192x64x64, .f32⟩
  | 45 => ⟨S8192x64x64, .f32⟩
  | 46 => ⟨S8192x64x64, .f32⟩
  | 47 => ⟨S_, .f32⟩
  | 48 => ⟨S8192x64x64, .f32⟩
  | 49 => ⟨S8192x64x64, .f32⟩
  | 50 => ⟨S8192x64x64, .f32⟩
  | 51 => ⟨S8192x64x64, .f32⟩
  | 52 => ⟨S8192x64x64, .f32⟩
  | 53 => ⟨S_, .f32⟩
  | 54 => ⟨S8192x64x64, .f32⟩
  | 55 => ⟨S8192x64x64, .f32⟩
  | 56 => ⟨S8192x64x64, .f32⟩
  | 57 => ⟨S_, .f32⟩
  | 58 => ⟨S8192x64x64, .f32⟩
  | 59 => ⟨S8192x64x64, .f32⟩
  | 60 => ⟨S8192x64x64, .f32⟩
  | 61 => ⟨S8192x64x64, .f32⟩
  | 62 => ⟨S8192x64x64, .f32⟩
  | 63 => ⟨S_, .f32⟩
  | 64 => ⟨S8192x64x64, .f32⟩
  | 65 => ⟨S8192x64x64, .f32⟩
  | 66 => ⟨S8192x64x64, .f32⟩
  | 67 => ⟨S_, .f32⟩
  | 68 => ⟨S8192x64x64, .f32⟩
  | 69 => ⟨S8192x64x64, .f32⟩
  | 70 => ⟨S8192x64x64, .f32⟩
  | 71 => ⟨S8192x64x64, .f32⟩
  | 72 => ⟨S8192x64x64, .f32⟩
  | 73 => ⟨S_, .f32⟩
  | 74 => ⟨S8192x64x64, .f32⟩
  | 75 => ⟨S8192x64x64, .f32⟩
  | 76 => ⟨S8192x64x64, .f32⟩
  | 77 => ⟨S_, .f32⟩
  | 78 => ⟨S8192x64x64, .f32⟩
  | 79 => ⟨S8192x64x64, .f32⟩
  | 80 => ⟨S8192x64x64, .f32⟩
  | 81 => ⟨S8192x64x64, .f32⟩
  | 82 => ⟨S8192x64x64, .f32⟩
  | 83 => ⟨S_, .f32⟩
  | 84 => ⟨S8192x64x64, .f32⟩
  | 85 => ⟨S8192x64x64, .f32⟩
  | 86 => ⟨S8192x64x64, .f32⟩
  | 87 => ⟨S_, .f32⟩
  | 88 => ⟨S8192x64x64, .f32⟩
  | 89 => ⟨S8192x64x64, .f32⟩
  | 90 => ⟨S8192x64x64, .f32⟩
  | 91 => ⟨S8192x64x64, .f32⟩
  | 92 => ⟨S8192x64x64, .f32⟩
  | 93 => ⟨S_, .f32⟩
  | 94 => ⟨S8192x64x64, .f32⟩
  | 95 => ⟨S8192x64x64, .f32⟩
  | 96 => ⟨S8192x64x64, .f32⟩
  | 97 => ⟨S_, .f32⟩
  | 98 => ⟨S8192x64x64, .f32⟩
  | 99 => ⟨S8192x64x64, .f32⟩
  | 100 => ⟨S8192x64x64, .f32⟩
  | 101 => ⟨S8192x64x64, .f32⟩
  | 102 => ⟨S8192x64x64, .f32⟩
  | 103 => ⟨S_, .f32⟩
  | 104 => ⟨S8192x64x64, .f32⟩
  | 105 => ⟨S8192x64x64, .f32⟩
  | 106 => ⟨S8192x64x64, .f32⟩
  | 107 => ⟨S_, .f32⟩
  | 108 => ⟨S8192x64x64, .f32⟩
  | 109 => ⟨S8192x64x64, .f32⟩
  | 110 => ⟨S8192x64x64, .f32⟩
  | 111 => ⟨S8192x64x64, .f32⟩
  | 112 => ⟨S8192x64x64, .f32⟩
  | 113 => ⟨S_, .f32⟩
  | 114 => ⟨S8192x64x64, .f32⟩
  | 115 => ⟨S8192x64x64, .f32⟩
  | 116 => ⟨S8192x64x64, .f32⟩
  | 117 => ⟨S_, .f32⟩
  | 118 => ⟨S8192x64x64, .f32⟩
  | 119 => ⟨S8192x64x64, .f32⟩
  | 120 => ⟨S8192x64x64, .f32⟩
  | 121 => ⟨S8192x64x64, .f32⟩
  | 122 => ⟨S8192x64x64, .f32⟩
  | 123 => ⟨S_, .f32⟩
  | 124 => ⟨S8192x64x64, .f32⟩
  | 125 => ⟨S8192x64x64, .f32⟩
  | 126 => ⟨S8192x64x64, .f32⟩
  | 127 => ⟨S_, .f32⟩
  | _ => ⟨S8192x64x64, .f32⟩

abbrev hbmTy0_1 (i : Nat) : BufTy := match i % 128 with
  | 0 => ⟨S8192x64x64, .f32⟩
  | 1 => ⟨S8192x64x64, .f32⟩
  | 2 => ⟨S8192x64x64, .f32⟩
  | _ => ⟨S8192x64x64, .f32⟩

abbrev hbmTy (i : Nat) : BufTy := match i / 128 with
  | 0 => hbmTy0_0 i
  | 1 => hbmTy0_1 i
  | _ => ⟨S8192x64x64, .f32⟩

abbrev bufTy : (tb : Table) → Fin (tcTables nBuf tb) → BufTy
  | .hbm, ⟨i, _⟩ => hbmTy i
  | _, _ => ⟨S8192x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_4 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_6 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_7 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_8 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_9 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_10 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_11 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_12 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_13 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_14 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_15 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_16 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_17 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_18 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_19 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_20 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst_21 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_22 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_cst_23 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_24 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩

abbrev nD : Nat := 1
abbrev τ : Topo := Topo.v7x

variable {F : FTy → Type} [FloatOps F]

class Facts₀ : Prop where
  transposes_S8192x64x64_S8192x64x64_0_2_1 : S8192x64x64.Transposes [0, 2, 1] S8192x64x64
  bcast_S_S8192x64x64 : S_.BroadcastsInDim S8192x64x64 (![] : Fin 0 → Fin S8192x64x64.rank)
  dot_S8192x64x64_S8192x64x64_S8192x64x64_2_1_1_2_0_0_wf : DotDims.WF S8192x64x64 S8192x64x64 S8192x64x64 [2] [1] [1] [2] [0] [0]

variable [Facts₀]

def dot_S8192x64x64_S8192x64x64_S8192x64x64_2_1_1_2_0_0 : DotDims S8192x64x64 S8192x64x64 S8192x64x64 where
  lhsContracting := [2]
  rhsContracting := [1]
  lhsNonContracting := [1]
  rhsNonContracting := [2]
  lhsBatch := [0]
  rhsBatch := [0]
  wf := dot_S8192x64x64_S8192x64x64_S8192x64x64_2_1_1_2_0_0_wf

class Facts : Prop extends Facts₀ where

variable [Facts]
-- ==== Proof.LibStackStep.lean ====
/-
  One step of the Björck orthogonalisation on a stack of G square matrices, and its iterates.

  On one n × n matrix M over the extended reals the step is
      M ↦ p · M − q · M · (Mᵀ M),
  entry (i, k) being  p · M(i,k) − q · ∑_j M(i,j) · ∑_l M(l,j) · M(l,k).

  On a stack [G, n, n] the same step is written with a transposition of the last two axes and two
  products of stacks (batch axis 0, the left factor contracted on its last axis, the right one on its
  middle axis).  Read at entry (g, i, k) it is the matrix step on member g alone (stackStep_apply), and so
  is every iterate (iterate_stackStep_apply).  Hence two stacks, of any two heights, that share a member
  have the same iterate on that member (iterate_stackStep_congr): the step never mixes members.

  Only the reading of the operations at an index is used; no law of the extended reals' arithmetic.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.StackMember

noncomputable section

open scoped BigOperators
open Idealize.ShloMosaic Idealize.ShloMosaic.ValueIdx

namespace Cert.LibStackStep

variable {G n : ℕ}

/-- The step on one n × n matrix: p · M − q · M · (Mᵀ M). -/
def matStep (p q : EReal) (M : Fin n → Fin n → EReal) : Fin n → Fin n → EReal :=
  fun i k => p * M i k - q * ∑ j : Fin n, M i j * ∑ l : Fin n, M l j * M l k

/-- Member g of a stack of G matrices, as a matrix. -/
def member (X : (⟨3, ![G, n, n]⟩ : Shape).Idx → EReal) (g : Fin G) : Fin n → Fin n → EReal :=
  fun i k => X (ix3 g i k)

/-- The step on a whole stack: p · X − q · X ⊛ (Xᵀ ⊛ X), with ⊛ the product of stacks member by member and
    ᵀ the transposition of each member; p and q are given by their 32-bit patterns. -/
def stackStep (w : DotDims.WF ⟨3, ![G, n, n]⟩ ⟨3, ![G, n, n]⟩ ⟨3, ![G, n, n]⟩ [2] [1] [1] [2] [0] [0])
    (ht : (⟨3, ![G, n, n]⟩ : Shape).Transposes [0, 2, 1] ⟨3, ![G, n, n]⟩) (p q : BitVec 32)
    (X : FVec Ideal ⟨3, ![G, n, n]⟩ .f32) : FVec Ideal ⟨3, ![G, n, n]⟩ .f32 :=
  subf (mulf (broadcast ⟨3, ![G, n, n]⟩ (Scalar.ofBits (F := Ideal) .f32 p)) X)
    (mulf (broadcast ⟨3, ![G, n, n]⟩ (Scalar.ofBits (F := Ideal) .f32 q))
      (Host.dotGeneral (⟨[2], [1], [1], [2], [0], [0], w⟩ : DotDims _ _ _) none X
        (Host.dotGeneral (⟨[2], [1], [1], [2], [0], [0], w⟩ : DotDims _ _ _) none
          (transpose ⟨3, ![G, n, n]⟩ [0, 2, 1] X ht) X)))

/-- The stack's step at entry (g, i, k) is the matrix step on member g at (i, k). -/
theorem stackStep_apply (w : DotDims.WF ⟨3, ![G, n, n]⟩ ⟨3, ![G, n, n]⟩ ⟨3, ![G, n, n]⟩ [2] [1] [1] [2] [0] [0])
    (ht : (⟨3, ![G, n, n]⟩ : Shape).Transposes [0, 2, 1] ⟨3, ![G, n, n]⟩) (p q : BitVec 32)
    (X : FVec Ideal ⟨3, ![G, n, n]⟩ .f32) (g : Fin G) (i k : Fin n) :
    stackStep w ht p q X (ix3 g i k)
      = matStep (Ideal.ofBits .f32 p) (Ideal.ofBits .f32 q) (member X g) i k := by
  show Ideal.ofBits .f32 p * X (ix3 g i k)
      - Ideal.ofBits .f32 q * Host.dotGeneral (⟨[2], [1], [1], [2], [0], [0], w⟩ : DotDims _ _ _) none X
          (Host.dotGeneral (⟨[2], [1], [1], [2], [0], [0], w⟩ : DotDims _ _ _) none
            (transpose ⟨3, ![G, n, n]⟩ [0, 2, 1] X ht) X) (ix3 g i k) = _
  rw [StackMember.dotGeneral_stack_apply]
  unfold matStep member
  refine congrArg (fun s => Ideal.ofBits .f32 p * X (ix3 g i k) - Ideal.ofBits .f32 q * s) ?_
  refine Finset.sum_congr rfl fun j _ => ?_
  rw [StackMember.dotGeneral_stack_apply]
  refine congrArg (fun s => X (ix3 g i j) * s) ?_
  refine Finset.sum_congr rfl fun l _ => ?_
  rw [transpose_ix3_021_apply]

/-- So the step's result on member g is the matrix step of member g. -/
theorem member_stackStep (w : DotDims.WF ⟨3, ![G, n, n]⟩ ⟨3, ![G, n, n]⟩ ⟨3, ![G, n, n]⟩ [2] [1] [1] [2] [0] [0])
    (ht : (⟨3, ![G, n, n]⟩ : Shape).Transposes [0, 2, 1] ⟨3, ![G, n, n]⟩) (p q : BitVec 32)
    (X : FVec Ideal ⟨3, ![G, n, n]⟩ .f32) (g : Fin G) :
    member (stackStep w ht p q X) g = matStep (Ideal.ofBits .f32 p) (Ideal.ofBits .f32 q) (member X g) :=
  funext fun i => funext fun k => stackStep_apply w ht p q X g i k

/-- Every iterate of the stack's step, on member g, is that iterate of the matrix step on member g. -/
theorem member_iterate_stackStep (w : DotDims.WF ⟨3, ![G, n, n]⟩ ⟨3, ![G, n, n]⟩ ⟨3, ![G, n, n]⟩ [2] [1] [1] [2] [0] [0])
    (ht : (⟨3, ![G, n, n]⟩ : Shape).Transposes [0, 2, 1] ⟨3, ![G, n, n]⟩) (p q : BitVec 32) (N : ℕ)
    (X : FVec Ideal ⟨3, ![G, n, n]⟩ .f32) (g : Fin G) :
    member ((stackStep w ht p q)^[N] X) g
      = (matStep (Ideal.ofBits .f32 p) (Ideal.ofBits .f32 q))^[N] (member X g) := by
  induction N with
  | zero => rfl
  | succ N ih => rw [Function.iterate_succ_apply', Function.iterate_succ_apply', member_stackStep, ih]

/-- Read at an entry. -/
theorem iterate_stackStep_apply (w : DotDims.WF ⟨3, ![G, n, n]⟩ ⟨3, ![G, n, n]⟩ ⟨3, ![G, n, n]⟩ [2] [1] [1] [2] [0] [0])
    (ht : (⟨3, ![G, n, n]⟩ : Shape).Transposes [0, 2, 1] ⟨3, ![G, n, n]⟩) (p q : BitVec 32) (N : ℕ)
    (X : FVec Ideal ⟨3, ![G, n, n]⟩ .f32) (g : Fin G) (i k : Fin n) :
    (stackStep w ht p q)^[N] X (ix3 g i k)
      = (matStep (Ideal.ofBits .f32 p) (Ideal.ofBits .f32 q))^[N] (member X g) i k :=
  congrFun (congrFun (member_iterate_stackStep w ht p q N X g) i) k

/-- The step never mixes members: two stacks, of heights G and G', with member g of the one equal to member g' of
    the other, have equal iterates on those members. -/
theorem iterate_stackStep_congr {G' : ℕ}
    (w : DotDims.WF ⟨3, ![G, n, n]⟩ ⟨3, ![G, n, n]⟩ ⟨3, ![G, n, n]⟩ [2] [1] [1] [2] [0] [0])
    (ht : (⟨3, ![G, n, n]⟩ : Shape).Transposes [0, 2, 1] ⟨3, ![G, n, n]⟩)
    (w' : DotDims.WF ⟨3, ![G', n, n]⟩ ⟨3, ![G', n, n]⟩ ⟨3, ![G', n, n]⟩ [2] [1] [1] [2] [0] [0])
    (ht' : (⟨3, ![G', n, n]⟩ : Shape).Transposes [0, 2, 1] ⟨3, ![G', n, n]⟩) (p q : BitVec 32) (N : ℕ)
    (X : FVec Ideal ⟨3, ![G, n, n]⟩ .f32) (Y : FVec Ideal ⟨3, ![G', n, n]⟩ .f32) (g : Fin G) (g' : Fin G')
    (h : member X g = member Y g') (i k : Fin n) :
    (stackStep w ht p q)^[N] X (ix3 g i k) = (stackStep w' ht' p q)^[N] Y (ix3 g' i k) := by
  rw [iterate_stackStep_apply, iterate_stackStep_apply, h]

/-- The same step as the matrix unit computes it: each factor first narrowed to bf16 (the identity on extended
    reals) and each product accumulated into a zero stack. It is the stack's step. -/
theorem mxu_step_eq (d : DotDims ⟨3, ![G, n, n]⟩ ⟨3, ![G, n, n]⟩ ⟨3, ![G, n, n]⟩)
    (w : DotDims.WF ⟨3, ![G, n, n]⟩ ⟨3, ![G, n, n]⟩ ⟨3, ![G, n, n]⟩ [2] [1] [1] [2] [0] [0])
    (hd : d = ⟨[2], [1], [1], [2], [0], [0], w⟩)
    (ht : (⟨3, ![G, n, n]⟩ : Shape).Transposes [0, 2, 1] ⟨3, ![G, n, n]⟩) (hb : FTy.bits .bf16 < FTy.bits .f32)
    (p q : BitVec 32) (X : FVec Ideal ⟨3, ![G, n, n]⟩ .f32) :
    subf (mulf (broadcast ⟨3, ![G, n, n]⟩ (Scalar.ofBits (F := Ideal) .f32 p)) X)
      (mulf (broadcast ⟨3, ![G, n, n]⟩ (Scalar.ofBits (F := Ideal) .f32 q))
        (matmul d none (truncf .bf16 X hb)
          (truncf .bf16 (matmul d none (transpose ⟨3, ![G, n, n]⟩ [0, 2, 1] (truncf .bf16 X hb) ht) (truncf .bf16 X hb)
            (constant ⟨3, ![G, n, n]⟩ .f32 0x00000000#32)) hb)
          (constant ⟨3, ![G, n, n]⟩ .f32 0x00000000#32)))
      = stackStep w ht p q X := by
  subst hd
  rw [matmul_zero_eq_dotGeneral, matmul_zero_eq_dotGeneral]
  rfl

end Cert.LibStackStep

end
-- ==== Proof.KernelStep.lean ====
/-
  The kernel's body on one block of 128 matrices is thirteen Björck steps.

  One step, as the body computes it on a block w : [128, 64, 64]:
      w ↦ 1.5 · w − 0.5 · (w ⊛ (wᵀ ⊛ w)),
  each factor of each product narrowed to bf16 first and each product accumulated into a zero block.  The body's
  text is cut into pieces that do not end on step boundaries; each piece is a run of whole steps, possibly begun
  by the second half of a step (the affine update from a block a, a product B and the splat c of 1.5) and
  possibly ended by the first half of the next (the two products).  Put back together the pieces are thirteen
  whole steps (payload_eq).  Over the extended reals the narrowing is the identity and a product into zero is
  the plain product, so a step is the stack's step of the general file (step_ideal).
-/
import proofs.«175019_j45122926411979_1_alg».proof.Proof.Gen.KernelIdeal.Skeleton
import proofs.«175019_j45122926411979_1_alg».proof.Proof.LibStackStep

noncomputable section

open Idealize.ShloMosaic Idealize.SL.Sem

namespace Cert.KernelIdeal.Step

open Cert.KernelIdeal Cert.KernelIdeal.Gen

variable {F : FTy → Type} [FloatOps F]

/-- The splat of 1.5. -/
def c15 : FVec F S128x64x64 .f32 := broadcast S128x64x64 (Scalar.ofBits .f32 0x3FC00000#32)

/-- w ⊛ (wᵀ ⊛ w) on a block, through bf16 factors and zero accumulators. -/
def wwtw (w : FVec F S128x64x64 .f32) : FVec F S128x64x64 .f32 :=
  matmul dot_S128x64x64_S128x64x64_S128x64x64_2_1_1_2_0_0 none (truncf .bf16 w bitsLt_bf16_f32)
    (truncf .bf16 (matmul dot_S128x64x64_S128x64x64_S128x64x64_2_1_1_2_0_0 none
      (transpose S128x64x64 [0, 2, 1] (truncf .bf16 w bitsLt_bf16_f32) transposes_S128x64x64_p0_2_1_S128x64x64)
      (truncf .bf16 w bitsLt_bf16_f32) (constant S128x64x64 .f32 0x00000000#32)) bitsLt_bf16_f32)
    (constant S128x64x64 .f32 0x00000000#32)

/-- The affine update: c · a − 0.5 · B. -/
def affine (a B c : FVec F S128x64x64 .f32) : FVec F S128x64x64 .f32 :=
  subf (mulf c a) (mulf (broadcast S128x64x64 (Scalar.ofBits .f32 0x3F000000#32)) B)

/-- One whole step. -/
def step (w : FVec F S128x64x64 .f32) : FVec F S128x64x64 .f32 := affine w (wwtw w) c15

/-! ## The pieces of the body's text -/

theorem pay2_eq (x : Vec F S128x64x64 .f32) : k0_pay2 x = step (step (step x)) := rfl
theorem pay3_eq (x : Vec F S128x64x64 .f32) : k0_pay3 x = wwtw (k0_pay2 x) := rfl
theorem pay4_eq : k0_pay4 (F := F) = c15 := rfl
theorem pay5_eq (a B c : FVec F S128x64x64 .f32) : k0_pay5 a B c = step (step (step (affine a B c))) := rfl
theorem pay6_eq (a B c : FVec F S128x64x64 .f32) : k0_pay6 a B c = wwtw (k0_pay5 a B c) := rfl
theorem pay7_eq : k0_pay7 (F := F) = c15 := rfl
theorem pay8_eq (a B c : FVec F S128x64x64 .f32) : k0_pay8 a B c = step (step (step (affine a B c))) := rfl
theorem pay9_eq (a B c : FVec F S128x64x64 .f32) : k0_pay9 a B c = wwtw (k0_pay8 a B c) := rfl
theorem pay10_eq : k0_pay10 (F := F) = c15 := rfl
theorem pay1_eq (a B c : FVec F S128x64x64 .f32) : k0_pay1 a B c = step (affine a B c) := rfl

/-- The second half of a step on top of its first half is the step. -/
theorem affine_wwtw (a : FVec F S128x64x64 .f32) : affine a (wwtw a) c15 = step a := rfl

/-- The stored value, as the body's text composes its pieces, is thirteen steps of the loaded block. -/
theorem payload_eq (x : Vec F S128x64x64 .f32) :
    k0_pay1 (k0_pay8 (k0_pay5 (k0_pay2 x) (k0_pay3 x) (k0_pay4 (F := F))) (k0_pay6 (k0_pay2 x) (k0_pay3 x) (k0_pay4 (F := F))) (k0_pay7 (F := F)))
      (k0_pay9 (k0_pay5 (k0_pay2 x) (k0_pay3 x) (k0_pay4 (F := F))) (k0_pay6 (k0_pay2 x) (k0_pay3 x) (k0_pay4 (F := F))) (k0_pay7 (F := F)))
      (k0_pay10 (F := F))
      = step^[13] x := by
  rw [pay1_eq, pay9_eq, pay10_eq, affine_wwtw, pay8_eq, pay6_eq, pay7_eq, affine_wwtw, pay5_eq, pay3_eq, pay4_eq,
    affine_wwtw, pay2_eq]
  rfl

/-! ## At the extended reals -/

theorem wf128 : DotDims.WF S128x64x64 S128x64x64 S128x64x64 [2] [1] [1] [2] [0] [0] :=
  dot_S128x64x64_S128x64x64_S128x64x64_2_1_1_2_0_0_wf

/-- The kernel's step over the extended reals is the stack's step with the patterns of 1.5 and 0.5. -/
theorem step_ideal :
    step (F := Ideal)
      = Cert.LibStackStep.stackStep (G := 128) (n := 64) wf128 transposes_S128x64x64_p0_2_1_S128x64x64
          0x3FC00000#32 0x3F000000#32 :=
  funext fun x => Cert.LibStackStep.mxu_step_eq (G := 128) (n := 64)
    dot_S128x64x64_S128x64x64_S128x64x64_2_1_1_2_0_0 wf128 rfl
    transposes_S128x64x64_p0_2_1_S128x64x64 bitsLt_bf16_f32 0x3FC00000#32 0x3F000000#32 x

end Cert.KernelIdeal.Step

end
-- ==== Proof.KernelValue.lean ====
/-
  The kernel's result array is thirteen Björck steps of the whole argument stack.

  Grid point t loads block t of the argument (matrices 128·t … 128·t + 127), applies thirteen steps to it and writes
  the result back as block t of the output.  A step treats each matrix of a stack by itself, so thirteen steps of a
  block, at matrix b of the block, are thirteen steps of the whole stack at matrix 128·t + b (iter_block).  Hence
  what point t writes back is block t of ONE array, thirteen steps of the whole argument (flushed_eq); the 64 blocks
  tile the output (cover); so the output ends holding that array (final, run).
-/
import proofs.«175019_j45122926411979_1_alg».proof.Proof.Gen.KernelIdeal.Value
import proofs.«175019_j45122926411979_1_alg».proof.Proof.KernelStep
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.Whole

open Cert.KernelIdeal Cert.KernelIdeal.Gen Cert.KernelIdeal.Value Cert.KernelIdeal.Step Cert.LibStackStep

theorem wf8192 : DotDims.WF S8192x64x64 S8192x64x64 S8192x64x64 [2] [1] [1] [2] [0] [0] := by decide
theorem tr8192 : S8192x64x64.Transposes [0, 2, 1] S8192x64x64 := by decide

/-- Thirteen steps of a whole stack of 8192 matrices. -/
def whole (W : FVec Ideal S8192x64x64 .f32) : FVec Ideal S8192x64x64 .f32 :=
  (stackStep (G := 8192) (n := 64) wf8192 tr8192 0x3FC00000#32 0x3F000000#32)^[13] W

/-- Thirteen steps of a block x that sits in the stack W at matrices o … o + 127 (e sends a block index to its
    index in the stack) are, entry by entry, thirteen steps of W there. -/
theorem iter_block (x : FVec Ideal S128x64x64 .f32) (W : FVec Ideal S8192x64x64 .f32)
    (e : S128x64x64.Idx → S8192x64x64.Idx) (o : ℕ)
    (he0 : ∀ y, (e y 0).val = o + (y 0).val) (he1 : ∀ y, (e y 1).val = (y 1).val) (he2 : ∀ y, (e y 2).val = (y 2).val)
    (hx : ∀ y, x y = W (e y)) (y : S128x64x64.Idx) :
    (stackStep (G := 128) (n := 64) wf128 transposes_S128x64x64_p0_2_1_S128x64x64 0x3FC00000#32 0x3F000000#32)^[13] x y
      = whole W (e y) := by
  obtain ⟨b, i, k, rfl⟩ : ∃ (b : Fin 128) (i k : Fin 64), y = ix3 b i k := ⟨y 0, y 1, y 2, eq_ix3 y⟩
  have hb : o + b.val < 8192 := by
    have h1 : (e (ix3 b i k) 0).val < 8192 := (e (ix3 b i k) 0).isLt
    have h2 : (e (ix3 b i k) 0).val = o + b.val := he0 (ix3 b i k)
    omega
  have ee : ∀ (i' k' : Fin 64), e (ix3 b i' k') = ix3 (⟨o + b.val, hb⟩ : Fin 8192) i' k' := fun i' k' =>
    funext fun a => Fin.ext (by
      match a with
      | ⟨0, _⟩ => exact he0 _
      | ⟨1, _⟩ => exact he1 _
      | ⟨2, _⟩ => exact he2 _)
  rw [ee]
  unfold whole
  exact iterate_stackStep_congr wf128 transposes_S128x64x64_p0_2_1_S128x64x64 wf8192 tr8192 0x3FC00000#32 0x3F000000#32 13
    x W b ⟨o + b.val, hb⟩ (funext fun i' => funext fun k' => by
      show x (ix3 b i' k') = W (ix3 (⟨o + b.val, hb⟩ : Fin 8192) i' k')
      rw [hx, ee]) i k

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps, decided over the 64 grid points: both windows' block index at point t is (t, 0, 0). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- What point t writes back is block t of thirteen steps of the whole argument. -/
theorem flushed_eq (c : Dev nD) (t : Fin cfg0.N) :
    (dats m 0 c).flushed 1 t = ((cfg0.win 1).blk t).view.read (Elt Ideal) (whole (V m c main_arg0)) := by
  rw [Value.flushed1]
  unfold out0_1
  rw [View.canon_unit_zero hz]
  simp only [View.ld_unit_zero (S := S128x64x64) hz]
  rw [payload_eq, step_ideal]
  obtain ⟨e0, e1, e2, e3, e4, e5⟩ := idx_facts t
  funext j
  exact iter_block (iblk m c 0 t) (V m c main_arg0) (fun y => ((cfg0.win 1).blk t).view.emb y) (t.val * 128)
    (fun y => by show win0_1.index t (0 : Fin 3) * 128 + 1 * (y 0).val = _; rw [e3]; omega)
    (fun y => by show win0_1.index t (1 : Fin 3) * 64 + 1 * (y 1).val = _; rw [e4]; omega)
    (fun y => by show win0_1.index t (2 : Fin 3) * 64 + 1 * (y 2).val = _; rw [e5]; omega)
    (fun y => by
      show V m c main_arg0 (((cfg0.win 0).blk t).view.emb y) = V m c main_arg0 (((cfg0.win 1).blk t).view.emb y)
      refine congrArg _ (funext fun a => Fin.ext ?_)
      match a with
      | ⟨0, _⟩ => show win0_0.index t (0 : Fin 3) * 128 + 1 * (y 0).val = win0_1.index t (0 : Fin 3) * 128 + 1 * (y 0).val; rw [e0, e3]
      | ⟨1, _⟩ => show win0_0.index t (1 : Fin 3) * 64 + 1 * (y 1).val = win0_1.index t (1 : Fin 3) * 64 + 1 * (y 1).val; rw [e1, e4]
      | ⟨2, _⟩ => show win0_0.index t (2 : Fin 3) * 64 + 1 * (y 2).val = win0_1.index t (2 : Fin 3) * 64 + 1 * (y 2).val; rw [e2, e5])
    j

/-- An index of the output is in point t's block iff each coordinate is in the block's range on its axis. -/
theorem mem_blk (t : Fin cfg0.N) (i : S8192x64x64.Idx) :
    i ∈ ((cfg0.win 1).blk t).view.set ↔ ∀ a : Fin 3, win0_1.index t a * S128x64x64.size a ≤ (i a).val
      ∧ (i a).val < win0_1.index t a * S128x64x64.size a + S128x64x64.size a := by
  show i ∈ ((View.whole main_v0).slice (win0_1.rect t)).set ↔ _
  rw [View.set_slice_whole, Rect.mem_set_unit]
  exact Iff.rfl

/-- Matrix g of the output lies in the block of point g / 128: the blocks tile the output. -/
theorem cover (i : S8192x64x64.Idx) :
    ∃ t : Fin cfg0.N, (cfg0.win 1).flush t = true ∧ i ∈ ((cfg0.win 1).blk t).view.set := by
  have hi0 : (i 0).val < 8192 := (i 0).isLt
  have hi1 : (i 1).val < 64 := (i 1).isLt
  have hi2 : (i 2).val < 64 := (i 2).isLt
  have hN : cfg0.N = 64 := N_0
  have ht : (i 0).val / 128 < cfg0.N := by rw [hN]; omega
  obtain ⟨e0, e1, e2, e3, e4, e5⟩ := idx_facts ⟨(i 0).val / 128, ht⟩
  refine ⟨⟨(i 0).val / 128, ht⟩, flush0_1 _, ?_⟩
  rw [mem_blk]
  intro a
  match a with
  | ⟨0, _⟩ =>
    show win0_1.index ⟨(i 0).val / 128, ht⟩ (0 : Fin 3) * 128 ≤ (i 0).val
      ∧ (i 0).val < win0_1.index ⟨(i 0).val / 128, ht⟩ (0 : Fin 3) * 128 + 128
    rw [e3]; show (i 0).val / 128 * 128 ≤ (i 0).val ∧ (i 0).val < (i 0).val / 128 * 128 + 128; omega
  | ⟨1, _⟩ =>
    show win0_1.index ⟨(i 0).val / 128, ht⟩ (1 : Fin 3) * 64 ≤ (i 1).val
      ∧ (i 1).val < win0_1.index ⟨(i 0).val / 128, ht⟩ (1 : Fin 3) * 64 + 64
    rw [e4]; omega
  | ⟨2, _⟩ =>
    show win0_1.index ⟨(i 0).val / 128, ht⟩ (2 : Fin 3) * 64 ≤ (i 2).val
      ∧ (i 2).val < win0_1.index ⟨(i 0).val / 128, ht⟩ (2 : Fin 3) * 64 + 64
    rw [e5]; omega

/-- So the output array ends holding thirteen steps of the argument. -/
theorem final (c : Dev nD) : (dats m 0 c).arrAt 1 cfg0.N = whole (m ((c : Thread nD τ).loc main_arg0)) :=
  (dats m 0 c).arrAt_eq_of_cover 1 (whole (V m c main_arg0)) (fun t _ => flushed_eq m c t) cover

/-- The kernel's run, read: the result at thirteen steps of the argument, the argument unchanged. -/
theorem run : θ_run defs (onTc (τ := τ) (main (F := Ideal))) ⟨m, fun _ => 0, ρ⟩ fun r => ∀ c : Dev nD,
      r.2.mem ((c : Thread nD τ).loc main_v0) = whole (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefStep.lean ====
/-
  The reference on the whole stack of 8192 matrices is thirteen Björck steps.

  Each pass of the reference's loop is, on w : [8192, 64, 64],
      w ↦ 1.5 · w − 0.5 · (w ⊛ (wᵀ ⊛ w)),
  with the transposition of each matrix and the two products of stacks as host operations: the stack's step of
  the general file, literally.  The run names the value after each of the first twelve passes; each is the step of
  the one before (res7_eq … res95_eq), and the result is the step of the twelfth (chain_eq, run13).
-/
import proofs.«175019_j45122926411979_1_alg».proof.Proof.Gen.ReferenceIdeal.Run
import proofs.«175019_j45122926411979_1_alg».proof.Proof.LibStackStep

noncomputable section

open Idealize.ShloMosaic Idealize.ShloMosaic.TcCoe Idealize.SL.Sem Idealize.ShloMosaic.StableHlo

namespace Cert.ReferenceIdeal.Step

open Cert.ReferenceIdeal Cert.ReferenceIdeal.Gen Cert.ReferenceIdeal.Value

theorem wf8192 : DotDims.WF S8192x64x64 S8192x64x64 S8192x64x64 [2] [1] [1] [2] [0] [0] :=
  dot_S8192x64x64_S8192x64x64_S8192x64x64_2_1_1_2_0_0_wf

/-- One pass of the reference's loop: the stack's step with the patterns of 1.5 and 0.5. -/
abbrev rstep : FVec Ideal S8192x64x64 .f32 → FVec Ideal S8192x64x64 .f32 :=
  Cert.LibStackStep.stackStep (G := 8192) (n := 64) wf8192 transposes_S8192x64x64_S8192x64x64_0_2_1
    0x3FC00000#32 0x3F000000#32

theorem res7_eq (V0 : Valuation τ sig (Elt Ideal)) : res_main_v7 V0 = rstep (V0 (Proc.devRef .tc main_arg0)) := rfl
theorem res15_eq (V0 : Valuation τ sig (Elt Ideal)) : res_main_v15 V0 = rstep (res_main_v7 V0) := rfl
theorem res23_eq (V0 : Valuation τ sig (Elt Ideal)) : res_main_v23 V0 = rstep (res_main_v15 V0) := rfl
theorem res31_eq (V0 : Valuation τ sig (Elt Ideal)) : res_main_v31 V0 = rstep (res_main_v23 V0) := rfl
theorem res39_eq (V0 : Valuation τ sig (Elt Ideal)) : res_main_v39 V0 = rstep (res_main_v31 V0) := rfl
theorem res47_eq (V0 : Valuation τ sig (Elt Ideal)) : res_main_v47 V0 = rstep (res_main_v39 V0) := rfl
theorem res55_eq (V0 : Valuation τ sig (Elt Ideal)) : res_main_v55 V0 = rstep (res_main_v47 V0) := rfl
theorem res63_eq (V0 : Valuation τ sig (Elt Ideal)) : res_main_v63 V0 = rstep (res_main_v55 V0) := rfl
theorem res71_eq (V0 : Valuation τ sig (Elt Ideal)) : res_main_v71 V0 = rstep (res_main_v63 V0) := rfl
theorem res79_eq (V0 : Valuation τ sig (Elt Ideal)) : res_main_v79 V0 = rstep (res_main_v71 V0) := rfl
theorem res87_eq (V0 : Valuation τ sig (Elt Ideal)) : res_main_v87 V0 = rstep (res_main_v79 V0) := rfl
theorem res95_eq (V0 : Valuation τ sig (Elt Ideal)) : res_main_v95 V0 = rstep (res_main_v87 V0) := rfl

/-- The last pass on top of the twelve named ones: thirteen steps of the argument. -/
theorem chain_eq (V0 : Valuation τ sig (Elt Ideal)) :
    rstep (res_main_v95 V0) = rstep^[13] (V0 (Proc.devRef .tc main_arg0)) := by
  rw [res95_eq, res87_eq, res79_eq, res71_eq, res63_eq, res55_eq, res47_eq, res39_eq, res31_eq, res23_eq, res15_eq,
    res7_eq]
  rfl

/-- The reference's run, read: the result at thirteen steps of the argument (the run's last pass is the step of the
    twelfth named value, literally), the argument unchanged. -/
theorem run13 (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v103) = rstep^[13] (m ((c.tc : Thread nD τ).loc main_arg0))
      ∧ r.2.mem ((c.tc : Thread nD τ).loc main_arg0) = m ((c.tc : Thread nD τ).loc main_arg0) :=
  (θ_run defs _ _).mono (fun _ h c => ⟨(h c).1.trans (chain_eq (launchContents m c)), (h c).2⟩)
    (Cert.ReferenceIdeal.Value.run (F := Ideal) m ρ)

end Cert.ReferenceIdeal.Step

end
-- ==== Proof.lean ====
/-
  Thirteen steps of the Björck orthogonalisation,  w ↦ 1.5 · w − 0.5 · w (wᵀ w),  on each of 8192 matrices of 64 × 64:
  the kernel, block of 128 matrices by block, against the reference on the whole stack, over the extended reals.

  The two programs write the same step with the same two constants (1.5 and 0.5, exact as 32-bit patterns, the same
  words on both sides and never evaluated).  The kernel narrows the factors of its products to bf16, which is the
  identity on extended reals, and accumulates each product into a zero block, which is the plain product; so its step
  on a block is the reference's step on a stack of 128 (Proof/KernelStep.lean), and the reference's pass is that step
  on the stack of 8192 (Proof/RefStep.lean).  The step treats every matrix of a stack by itself — the transposition
  and both products carry the leading axis along — hence so do its iterates (Proof/LibStackStep.lean): thirteen steps
  of block t at its matrix b are thirteen steps of the whole stack at matrix 128·t + b.  The 64 blocks tile the
  output, so the kernel's result array is thirteen steps of the whole argument (Proof/KernelValue.lean), which is
  the reference's result.  No law of the extended reals' arithmetic is used, and finiteness of the input is not
  needed: both sides are one expression, entry by entry.

  The three frames are the generated ones (the reference's is its generated run with the result dropped); the
  idealisation rewrote nothing, so there is nothing to preserve.
-/
import proofs.«175019_j45122926411979_1_alg».proof.Defs
import proofs.«175019_j45122926411979_1_alg».proof.Proof.Gen.Kernel
import proofs.«175019_j45122926411979_1_alg».proof.Proof.Gen.Kernel.Skeleton
import proofs.«175019_j45122926411979_1_alg».proof.Proof.Gen.Kernel.Launch
import proofs.«175019_j45122926411979_1_alg».proof.Proof.Gen.Kernel.Points
import proofs.«175019_j45122926411979_1_alg».proof.Proof.Gen.Kernel.Frame
import proofs.«175019_j45122926411979_1_alg».proof.Proof.Gen.KernelIdeal
import proofs.«175019_j45122926411979_1_alg».proof.Proof.Gen.KernelIdeal.Skeleton
import proofs.«175019_j45122926411979_1_alg».proof.Proof.Gen.KernelIdeal.Launch
import proofs.«175019_j45122926411979_1_alg».proof.Proof.Gen.KernelIdeal.Points
import proofs.«175019_j45122926411979_1_alg».proof.Proof.Gen.KernelIdeal.Frame
import proofs.«175019_j45122926411979_1_alg».proof.Proof.Gen.ReferenceIdeal
import proofs.«175019_j45122926411979_1_alg».proof.Proof.Gen.KernelIdeal.Value
import proofs.«175019_j45122926411979_1_alg».proof.Proof.Gen.ReferenceIdeal.Run
import proofs.«175019_j45122926411979_1_alg».proof.Proof.Gen.Pre_finite_inputs
import proofs.«175019_j45122926411979_1_alg».proof.Proof.KernelValue
import proofs.«175019_j45122926411979_1_alg».proof.Proof.RefStep
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both results are thirteen steps of the whole argument stack: the kernel's by its blocks (KernelValue's run), the
    reference's by its run; the two statements of the stack's step differ only in which proofs of the shape facts
    they carry. -/
theorem algebraic : Cert.algebraic_KernelIdeal_ReferenceIdeal := by
  intro m ρ m' ρ' _ hagree
  refine ⟨fun c => Cert.KernelIdeal.Whole.whole (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Step.run13 m' ρ')
  rw [hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
